-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 4294917296#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x128 .f32) (main_arg1 : IVec S2x800000 32) (main_arg2 : FVec F S128x256 .f32) (main_arg3 : FVec F S256 .f32) (main_arg4 : FVec F S256x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg4
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S1x256 : Shape := ⟨2, ![1, 256]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 75
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x256, .f32⟩
  | .hbm, ⟨30, _⟩ => ⟨S800000x256, .i1⟩
  | .hbm, ⟨31, _⟩ => ⟨S_, .f32⟩
  | .hbm, ⟨32, _⟩ => ⟨S800000x256, .f32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S50000x40, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S1, .i32⟩
  | .hbm, ⟨54, _⟩ => ⟨S_, .i32⟩
  | .hbm, ⟨55, _⟩ => ⟨S800000x1, .i32⟩
  | .hbm, ⟨56, _⟩ => ⟨S800000x1, .i1⟩
  | .hbm, ⟨57, _⟩ => ⟨S1x1, .i32⟩
  | .hbm, ⟨58, _⟩ => ⟨S800000x1, .i32⟩
  | .hbm, ⟨59, _⟩ => ⟨S800000x1, .i1⟩
  | .hbm, ⟨60, _⟩ => ⟨S800000x1, .i1⟩
  | .hbm, ⟨61, _⟩ => ⟨S_, .i1⟩
  | .hbm, ⟨62, _⟩ => ⟨S800000, .i1⟩
  | .hbm, ⟨63, _⟩ => ⟨S800000x40, .f32⟩
  | .hbm, ⟨64, _⟩ => ⟨S800000x40, .i1⟩
  | .hbm, ⟨65, _⟩ => ⟨S_, .f32⟩
  | .hbm, ⟨66, _⟩ => ⟨S800000x40, .f32⟩
  | .hbm, ⟨67, _⟩ => ⟨S800000x40, .f32⟩
  | .hbm, ⟨68, _⟩ => ⟨S_, .f32⟩
  | .hbm, ⟨69, _⟩ => ⟨S50000x40, .f32⟩
  | .hbm, ⟨70, _⟩ => ⟨S800000x1, .i32⟩
  | .hbm, ⟨71, _⟩ => ⟨S50000x40, .f32⟩
  | .hbm, ⟨72, _⟩ => ⟨S1x40, .f32⟩
  | .hbm, ⟨73, _⟩ => ⟨S50000x40, .f32⟩
  | .hbm, ⟨74, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x40, .f32⟩
  | .local _ .vmem, ⟨8, _⟩ => ⟨S5000x40, .f32⟩
  | .local _ .vmem, ⟨9, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call1_cst : Ref sig .tc := ⟨.hbm, 41, rfl⟩
abbrev main_call1_v0 : Ref sig .tc := ⟨.hbm, 42, rfl⟩
abbrev main_v12 : Ref sig .tc := ⟨.hbm, 43, rfl⟩
abbrev main_v13 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_call2_cst : Ref sig .tc := ⟨.hbm, 65, rfl⟩
abbrev main_call2_v15 : Ref sig .tc := ⟨.hbm, 66, rfl⟩
abbrev main_v14 : Ref sig .tc := ⟨.hbm, 67, rfl⟩
abbrev main_cst_0 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S800000_S800000x40_0 : S800000.BroadcastsInDim S800000x40 (![0] : Fin 1 → Fin S800000x40.rank)
  bcast_S_S800000x40 : S_.BroadcastsInDim S800000x40 (![] : Fin 0 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x40_S5000x40_1_0_0_1_n_n_wf : DotDims.WF S5000x256 S256x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x40.size a ≤ S256x40.size a
  hwx1_1 : ∀ i : grid1.Coords, EltTy.bits .f32 = 32 ∨ (Rect.block (s := S256x40) S256x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S1x256, .f32⟩
  | .hbm, ⟨25, _⟩ => ⟨S50000x256, .f32⟩
  | .hbm, ⟨26, _⟩ => ⟨S50000x256, .f32⟩
  | .hbm, ⟨27, _⟩ => ⟨S_, .f32⟩
  | .hbm, ⟨28, _⟩ => ⟨S50000x256, .f32⟩
  | .hbm, ⟨29, _⟩ => ⟨S50000x256, .f32⟩
  | .hbm, ⟨30, _⟩ => ⟨S50000x40, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x40, .f32⟩
  | .hbm, ⟨40, _⟩ => ⟨S_, .f32⟩
  | .hbm, ⟨41, _⟩ => ⟨S50000x40, .f32⟩
  | .hbm, ⟨42, _⟩ => ⟨S800000x1, .i32⟩
  | .hbm, ⟨43, _⟩ => ⟨S50000x40, .f32⟩
  | .hbm, ⟨44, _⟩ => ⟨S1x40, .f32⟩
  | .hbm, ⟨45, _⟩ => ⟨S50000x40, .f32⟩
  | .hbm, ⟨46, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Stages.lean ====
/-
  The host side of the kernel's program, as pure functions of arrays: what the operations between and after the two
  tiled matrix products compute, in the program's own order.

  One graph-convolution layer takes a projected feature array h (one row per node), gathers a row per edge at the edge's
  source node, sums the gathered rows per destination node, and adds a bias. The program's gather is a "take with
  fill": a negative source id is first wrapped around by the number of nodes; an id that is then still outside
  [0, 49999] does not read the array but yields a fixed fill value instead. The first layer ends in a rectifier.
-/
import proofs.«401472_j7224134992216_1_alg».proof.Proof.Gen.KernelIdeal

noncomputable section

namespace Cert.KernelIdeal.Stages

open Idealize.ShloMosaic Cert.KernelIdeal Cert.KernelIdeal.Facts₀ Cert.KernelIdeal.Facts

variable {F : FTy → Type} [FloatOps F]

/-- The start indices of the gather, one per edge: the source id, moved up by the number of nodes when negative. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per edge, whether its start index lies in [0, 49999]. -/
def inRange (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take with fill over rows of width 256: the gathered row where the start index is in range, the fill elsewhere. -/
def take256 (h : FVec F S50000x256 .f32) (src : IVec S800000 32) : FVec F S800000x256 .f32 :=
  select (broadcastInDim S800000x256 ![0] bcast_S800000_S800000x256_0 (inRange (wrapIdx src)))
    (Host.gather gather_S50000x256_S800000x1_S800000x256_1_0_n_n_0_1_1256 h (wrapIdx src))
    (broadcastInDim S800000x256 ![] bcast_S_S800000x256 (constant S_ .f32 0x7FC00000#32))

/-- The same over rows of width 40. -/
def take40 (h : FVec F S50000x40 .f32) (src : IVec S800000 32) : FVec F S800000x40 .f32 :=
  select (broadcastInDim S800000x40 ![0] bcast_S800000_S800000x40_0 (inRange (wrapIdx src)))
    (Host.gather gather_S50000x40_S800000x1_S800000x40_1_0_n_n_0_1_140 h (wrapIdx src))
    (broadcastInDim S800000x40 ![] bcast_S_S800000x40 (constant S_ .f32 0x7FC00000#32))

/-- Messages summed per destination node, plus the bias: the first layer before its rectifier, from the messages. -/
def aggregate256 (msg : FVec F S800000x256 .f32) (dst : IVec S800000 32) (b : FVec F S256 .f32) : FVec F S50000x256 .f32 :=
  addf (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst) msg)
    (broadcastInDim S50000x256 ![0, 1] bcast_S1x256_S50000x256_0_1 (broadcastInDim S1x256 ![1] bcast_S256_S1x256_1 b))

/-- The same for the second layer. -/
def aggregate40 (msg : FVec F S800000x40 .f32) (dst : IVec S800000 32) (b : FVec F S40 .f32) : FVec F S50000x40 .f32 :=
  addf (Host.scatterAdd scatter_S50000x40_S800000x1_S800000x40_1_0_0_1
      (broadcastInDim S50000x40 ![] bcast_S_S50000x40 (constant S_ .f32 0x00000000#32))
      (broadcastInDim S800000x1 ![0] bcast_S800000_S800000x1_0 dst) msg)
    (broadcastInDim S50000x40 ![0, 1] bcast_S1x40_S50000x40_0_1 (broadcastInDim S1x40 ![1] bcast_S40_S1x40_1 b))

/-- The rectifier: the maximum with zero, entry by entry. -/
def rectify (x : FVec F S50000x256 .f32) : FVec F S50000x256 .f32 :=
  maximumf x (broadcastInDim S50000x256 ![] bcast_S_S50000x256 (constant S_ .f32 0x00000000#32))

/-- Row 0 of the edge list, flattened: the source ids. -/
def srcOf (e : IVec S2x800000 32) : IVec S800000 32 :=
  shapeCast S800000 (extractStridedSlice S1x800000 ![0, 0] e slices_S2x800000_S1x800000_0_0) shapeCasts_S1x800000_S800000

/-- Row 1 of the edge list, flattened: the destination ids. -/
def dstOf (e : IVec S2x800000 32) : IVec S800000 32 :=
  shapeCast S800000 (extractStridedSlice S1x800000 ![1, 0] e slices_S2x800000_S1x800000_1_0) shapeCasts_S1x800000_S800000

end Cert.KernelIdeal.Stages

end
-- ==== Proof.Readback.lean ====
/-
  What the kernel's program leaves in its buffers, stretch by stretch, read back as the pure stage functions.

  The run's memory is a fold: the launch memory, then the two slices of the edge list, then the first tiled product's
  write-backs, then the first layer's host operations, then the second product's write-backs, then the second layer's
  host operations. A buffer that a stretch does not write keeps what it held; a buffer a stretch computes holds the
  stage function of the buffers it reads.
-/
import proofs.«401472_j7224134992216_1_alg».proof.Proof.Gen.KernelIdeal.Frame
import proofs.«401472_j7224134992216_1_alg».proof.Proof.Stages
import Idealize.ShloMosaic.Lib.StableHlo.Run

set_option maxRecDepth 16384

noncomputable section

namespace Cert.KernelIdeal.Readback

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ) (ρ : Dev nD → PrngReg)

/-! ## After the two slices of the edge list -/

set_option maxHeartbeats 2000000 in
/-- The source ids are row 0 of the edge list as launched. -/
theorem W1_src (c : Dev nD) : W1 m ρ c (Proc.devRef .tc main_v1) = srcOf (m ((c : Thread nD τ).loc main_arg1)) := by
  delta W1 W0; after_results <;> rfl

set_option maxHeartbeats 2000000 in
/-- The destination ids are row 1 of the edge list as launched. -/
theorem W1_dst (c : Dev nD) : W1 m ρ c (Proc.devRef .tc main_v3) = dstOf (m ((c : Thread nD τ).loc main_arg1)) := by
  delta W1 W0; after_results <;> rfl

set_option maxHeartbeats 2000000 in
theorem W1_arg0 (c : Dev nD) : W1 m ρ c (Proc.devRef .tc main_arg0) = m ((c : Thread nD τ).loc main_arg0) := by
  delta W1 W0; after_results <;> rfl
set_option maxHeartbeats 2000000 in
theorem W1_arg2 (c : Dev nD) : W1 m ρ c (Proc.devRef .tc main_arg2) = m ((c : Thread nD τ).loc main_arg2) := by
  delta W1 W0; after_results <;> rfl
set_option maxHeartbeats 2000000 in
theorem W1_arg3 (c : Dev nD) : W1 m ρ c (Proc.devRef .tc main_arg3) = m ((c : Thread nD τ).loc main_arg3) := by
  delta W1 W0; after_results <;> rfl
set_option maxHeartbeats 2000000 in
theorem W1_arg4 (c : Dev nD) : W1 m ρ c (Proc.devRef .tc main_arg4) = m ((c : Thread nD τ).loc main_arg4) := by
  delta W1 W0; after_results <;> rfl
set_option maxHeartbeats 2000000 in
theorem W1_arg5 (c : Dev nD) : W1 m ρ c (Proc.devRef .tc main_arg5) = m ((c : Thread nD τ).loc main_arg5) := by
  delta W1 W0; after_results <;> rfl

/-! ## At the first product's exit: its output holds the write-backs, every other buffer is as entered -/

theorem W2_proj (c : Dev nD) : W2 m ρ c (Proc.devRef .tc main_v4) = (dat0 (V1 m ρ) c).arrAt 2 cfg0.N := W2_arr m ρ c 2
theorem W2_src (c : Dev nD) : W2 m ρ c (Proc.devRef .tc main_v1) = srcOf (m ((c : Thread nD τ).loc main_arg1)) :=
  (W2_of_ne m ρ c main_v1 (by decide)).trans (W1_src m ρ c)
theorem W2_dst (c : Dev nD) : W2 m ρ c (Proc.devRef .tc main_v3) = dstOf (m ((c : Thread nD τ).loc main_arg1)) :=
  (W2_of_ne m ρ c main_v3 (by decide)).trans (W1_dst m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

end Cert.KernelIdeal.Readback

end
-- ==== Proof.ReadbackL1.lean ====
/-
  The first layer's host operations, read back one stretch at a time: the take with fill of the first product's rows at
  the source ids, the sum per destination node plus the bias, the rectifier. What none of them writes is as it was.
-/
import proofs.«401472_j7224134992216_1_alg».proof.Proof.Gen.KernelIdeal.Frame
import proofs.«401472_j7224134992216_1_alg».proof.Proof.Stages
import Idealize.ShloMosaic.Lib.StableHlo.Run

set_option maxRecDepth 16384

noncomputable section

namespace Cert.KernelIdeal.Readback

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ) (ρ : Dev nD → PrngReg)

/-! ## The take with fill -/

set_option maxRecDepth 200000 in
set_option maxHeartbeats 8000000 in
theorem W3_take (c : Dev nD) : W3 m ρ c (Proc.devRef .tc main_v5)
    = take256 (W2 m ρ c (Proc.devRef .tc main_v4)) (W2 m ρ c (Proc.devRef .tc main_v1)) := by
  delta W3; after_results
  -- each operation's value is carried to its buffer's type and back along one equation: the round trip is the identity
  all_goals (simp only [TRef.toBuf, TRef.ofBuf, cast_cast, cast_eq]; rfl)
set_option maxRecDepth 200000 in
set_option maxHeartbeats 8000000 in
theorem W3_dst (c : Dev nD) : W3 m ρ c (Proc.devRef .tc main_v3) = W2 m ρ c (Proc.devRef .tc main_v3) := by
  delta W3; after_results <;> rfl
set_option maxRecDepth 200000 in
set_option maxHeartbeats 8000000 in
theorem W3_arg3 (c : Dev nD) : W3 m ρ c (Proc.devRef .tc main_arg3) = W2 m ρ c (Proc.devRef .tc main_arg3) := by
  delta W3; after_results <;> rfl

/-! ## The sum per destination node, plus the bias -/

set_option maxRecDepth 200000 in
set_option maxHeartbeats 8000000 in
theorem W4_agg (c : Dev nD) : W4 m ρ c (Proc.devRef .tc main_v11)
    = aggregate256 (W3 m ρ c (Proc.devRef .tc main_v5)) (W3 m ρ c (Proc.devRef .tc main_v3)) (W3 m ρ c (Proc.devRef .tc main_arg3)) := by
  delta W4; after_results <;> rfl

/-! ## The rectifier -/

set_option maxRecDepth 200000 in
set_option maxHeartbeats 8000000 in
theorem W5_rect (c : Dev nD) : W5 m ρ c (Proc.devRef .tc main_v12) = rectify (W4 m ρ c (Proc.devRef .tc main_v11)) := by
  delta W5; after_results <;> rfl

/-- The hidden layer is the rectified aggregate of the messages taken from the first product. -/
theorem W5_hidden (c : Dev nD) : W5 m ρ c (Proc.devRef .tc main_v12)
    = rectify (aggregate256 (take256 (W2 m ρ c (Proc.devRef .tc main_v4)) (W2 m ρ c (Proc.devRef .tc main_v1)))
        (W2 m ρ c (Proc.devRef .tc main_v3)) (W2 m ρ c (Proc.devRef .tc main_arg3))) := by
  rw [W5_rect, W4_agg, W3_take, W3_dst, W3_arg3]

/-! ## What the three stretches leave alone -/

set_option maxRecDepth 200000 in
set_option maxHeartbeats 8000000 in
theorem W5_src (c : Dev nD) : W5 m ρ c (Proc.devRef .tc main_v1) = W2 m ρ c (Proc.devRef .tc main_v1) := by
  delta W5 W4 W3; after_results <;> rfl
set_option maxRecDepth 200000 in
set_option maxHeartbeats 8000000 in
theorem W5_dst (c : Dev nD) : W5 m ρ c (Proc.devRef .tc main_v3) = W2 m ρ c (Proc.devRef .tc main_v3) := by
  delta W5 W4 W3; after_results <;> rfl
set_option maxRecDepth 200000 in
set_option maxHeartbeats 8000000 in
theorem W5_arg4 (c : Dev nD) : W5 m ρ c (Proc.devRef .tc main_arg4) = W2 m ρ c (Proc.devRef .tc main_arg4) := by
  delta W5 W4 W3; after_results <;> rfl
set_option maxRecDepth 200000 in
set_option maxHeartbeats 8000000 in
theorem W5_arg5 (c : Dev nD) : W5 m ρ c (Proc.devRef .tc main_arg5) = W2 m ρ c (Proc.devRef .tc main_arg5) := by
  delta W5 W4 W3; after_results <;> rfl

end Cert.KernelIdeal.Readback

end
-- ==== Proof.ReadbackL2.lean ====
/-
  The second layer's host operations, read back one stretch at a time: the take with fill of the second product's rows
  at the source ids, then the sum per destination node plus the bias. What neither writes is as it was.
-/
import proofs.«401472_j7224134992216_1_alg».proof.Proof.Gen.KernelIdeal.Frame
import proofs.«401472_j7224134992216_1_alg».proof.Proof.Stages
import proofs.«401472_j7224134992216_1_alg».proof.Proof.ReadbackL1
import Idealize.ShloMosaic.Lib.StableHlo.Run

set_option maxRecDepth 16384

noncomputable section

namespace Cert.KernelIdeal.Readback

open Idealize.ShloMosaic Idealize.ShloMosaic.TcCoe Idealize.SL.Sem Idealize.ShloMosaic.StableHlo
open Cert.KernelIdeal Cert.KernelIdeal.Gen Cert.KernelIdeal.Stages

variable {F : FTy → Type} [FloatOps F]
variable (m : (ℓ : Loc nD τ sig) → Buf (Elt F) ℓ) (ρ : Dev nD → PrngReg)

/-! ## The take with fill -/

set_option maxRecDepth 200000 in
set_option maxHeartbeats 8000000 in
theorem W7_take (c : Dev nD) : W7 m ρ c (Proc.devRef .tc main_v14)
    = take40 (W6 m ρ c (Proc.devRef .tc main_v13)) (W6 m ρ c (Proc.devRef .tc main_v1)) := by
  delta W7; after_results
  -- each operation's value is carried to its buffer's type and back along one equation: the round trip is the identity
  all_goals (simp only [TRef.toBuf, TRef.ofBuf, cast_cast, cast_eq]; rfl)
set_option maxRecDepth 200000 in
set_option maxHeartbeats 8000000 in
theorem W7_dst (c : Dev nD) : W7 m ρ c (Proc.devRef .tc main_v3) = W6 m ρ c (Proc.devRef .tc main_v3) := by
  delta W7; after_results <;> rfl
set_option maxRecDepth 200000 in
set_option maxHeartbeats 8000000 in
theorem W7_arg5 (c : Dev nD) : W7 m ρ c (Proc.devRef .tc main_arg5) = W6 m ρ c (Proc.devRef .tc main_arg5) := by
  delta W7; after_results <;> rfl

/-! ## The sum per destination node, plus the bias -/

set_option maxRecDepth 200000 in
set_option maxHeartbeats 8000000 in
theorem W8_agg (c : Dev nD) : W8 m ρ c (Proc.devRef .tc main_v20)
    = aggregate40 (W7 m ρ c (Proc.devRef .tc main_v14)) (W7 m ρ c (Proc.devRef .tc main_v3)) (W7 m ρ c (Proc.devRef .tc main_arg5)) := by
  delta W8; after_results <;> rfl

/-- The result is the aggregate of the messages taken from the second product. -/
theorem W8_out (c : Dev nD) : W8 m ρ c (Proc.devRef .tc main_v20)
    = aggregate40 (take40 (W6 m ρ c (Proc.devRef .tc main_v13)) (W6 m ρ c (Proc.devRef .tc main_v1)))
        (W6 m ρ c (Proc.devRef .tc main_v3)) (W6 m ρ c (Proc.devRef .tc main_arg5)) := by
  rw [W8_agg, W7_take, W7_dst, W7_arg5]

end Cert.KernelIdeal.Readback

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Region0.lean ====
import proofs.«401472_j7224134992216_1_alg».proof.Proof.Gen.KernelIdeal.Frame
import proofs.«401472_j7224134992216_1_alg».proof.Proof.LibDotSum
import Idealize.ShloMosaic.Lib.Pipeline.Value
import Idealize.ShloMosaic.Lib.ValueIdx

set_option maxRecDepth 16384

noncomputable section

namespace Cert.KernelIdeal.Matmul

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The first product's left operand as the region finds it: the node features. -/
abbrev lhs0 (c : Dev nD) : FVec Ideal S50000x128 .f32 := V c main_arg0
/-- The first product's right operand as the region finds it: the first weight matrix. -/
abbrev rhs0 (c : Dev nD) : FVec Ideal S128x256 .f32 := V c main_arg2

/-! ## One block product

At a grid point the body multiplies a block of 5000 rows of the left operand by the whole right operand. -/

/-- One block product at an index: the two casts to the narrow format are the identity on ideal values, and the product
    into the zero accumulator is the sum over the contracted coordinate. -/
private theorem blockProduct0_apply (x0 : FVec Ideal S5000x128 .f32) (x1 : FVec Ideal S128x256 .f32)
    (p : Fin 5000) (q : Fin 256) :
    k0_pay1 (F := Ideal) x0 x1 (ix2 p q) = ∑ k : Fin 128, x0 (ix2 p k) * x1 (ix2 k q) := by
  unfold k0_pay1
  exact Cert.Lib.matmul_rc_apply dot_S5000x128_S128x256_S5000x256_1_0_0_1_n_n rfl rfl rfl rfl rfl rfl none _ _ p q

/-! ## Where the blocks sit

Point t takes row block t of the left operand and of the output; the right operand's one block never moves. -/

/-- The three index maps over the ten grid points: (t, 0) for the left operand and the output, (0, 0) for the right operand. -/
private theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 5000 t + p of the operand. -/
private theorem lhsBlock0_apply (c : Dev nD) (t : Fin cfg0.N) (p : Fin 5000) (k : Fin 128) (r : Fin 50000)
    (hr : r.val = t.val * 5000 + p.val) :
    (iblk0 V c 0 t : Vec Ideal S5000x128 .f32) (ix2 p k) = lhs0 V c (ix2 r k) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The right operand's block at every point is the operand itself. -/
private theorem rhsBlock0_apply (c : Dev nD) (t : Fin cfg0.N) (k : Fin 128) (q : Fin 256) :
    (iblk0 V c 1 t : Vec Ideal S128x256 .f32) (ix2 k q) = rhs0 V c (ix2 k q) := by
  obtain ⟨-, -, e2, e3, -⟩ := blockIndex0 t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 256 + 1 * q.val = q.val; omega

/-! ## The whole product, and what each point writes of it -/

private theorem zeroOffsets0 : (![0, 0] : Fin 2 → Nat) = fun _ => 0 := funext fun a => by fin_cases a <;> rfl

/-- The full product as one array: entry (r, q) is the sum over k of x (r, k) · W (k, q). -/
private def product0 (c : Dev nD) : FVec Ideal S50000x256 .f32 := fun i =>
  ∑ k : Fin 128, lhs0 V c (ix2 (⟨(i 0).val, idx2_lt0 i⟩ : Fin 50000) k) * rhs0 V c (ix2 k (⟨(i 1).val, idx2_lt1 i⟩ : Fin 256))

/-- The product at an index whose coordinates are r and q. -/
private theorem product0_apply (c : Dev nD) (i : S50000x256.Idx) (r : Fin 50000) (q : Fin 256)
    (h0 : (i 0).val = r.val) (h1 : (i 1).val = q.val) :
    product0 V c i = ∑ k : Fin 128, lhs0 V c (ix2 r k) * rhs0 V c (ix2 k q) := by
  unfold product0
  have e0 : (⟨(i 0).val, idx2_lt0 i⟩ : Fin 50000) = r := Fin.ext h0
  have e1 : (⟨(i 1).val, idx2_lt1 i⟩ : Fin 256) = q := Fin.ext h1
  rw [e0, e1]

/-- What point t writes back is row block t of the full product: entry (p, q) of the block product of rows
    5000 t … 5000 t + 4999 of x with W is entry (5000 t + p, q) of x · W. -/
private theorem writeBack0_eq (c : Dev nD) (t : Fin cfg0.N) :
    (dat0 (F := Ideal) V c).flushed 2 t = ((cfg0.win 2).blk t).view.read (Elt Ideal) (product0 V c) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x256) zeroOffsets0]
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (ix2 p q)
    = product0 V c (((cfg0.win 2).blk t).view.emb (ix2 p q))
  obtain ⟨-, -, -, -, e4, e5⟩ := blockIndex0 t
  have ht : t.val < 10 := Nat.lt_of_lt_of_eq t.isLt N_0
  have hr : t.val * 5000 + p.val < 50000 := by omega
  have hi0 : ((((cfg0.win 2).blk t).view.emb (ix2 p q) : S50000x256.Idx) 0).val = t.val * 5000 + p.val := by
    show win0_2.index t (0 : Fin 2) * 5000 + 1 * p.val = _
    omega
  have hi1 : ((((cfg0.win 2).blk t).view.emb (ix2 p q) : S50000x256.Idx) 1).val = q.val := by
    show win0_2.index t (1 : Fin 2) * 256 + 1 * q.val = _
    omega
  rw [blockProduct0_apply, product0_apply V c _ ⟨t.val * 5000 + p.val, hr⟩ q hi0 hi1]
  refine Finset.sum_congr rfl fun k _ => ?_
  rw [lhsBlock0_apply V c t p k ⟨t.val * 5000 + p.val, hr⟩ rfl, rhsBlock0_apply]

/-- Every index of the output lies in some point's block: row r is in row block r / 5000. -/
private theorem covered0 (i : S50000x256.Idx) :
    ∃ t : Fin cfg0.N, (cfg0.win 2).flush t = true ∧ i ∈ ((cfg0.win 2).blk t).view.set := by
  have h0 : (i 0).val < 50000 := idx2_lt0 i
  have h1 : (i 1).val < 256 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := blockIndex0 t
  refine ⟨t, flush0_2 t, ?_⟩
  show i ∈ ((View.whole main_v4).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the ten points the output array is the full product. -/
private theorem region0_array (c : Dev nD) : (dat0 (F := Ideal) V c).arrAt 2 cfg0.N = product0 V c :=
  (dat0 V c).arrAt_eq_of_cover 2 (product0 V c) (fun t _ => writeBack0_eq V c t) covered0

theorem region0_value (c : Dev nD) (r : Fin 50000) (q : Fin 256) :
    (dat0 (F := Ideal) V c).arrAt 2 cfg0.N (ix2 r q) = ∑ k : Fin 128, lhs0 V c (ix2 r k) * rhs0 V c (ix2 k q) := by
  rw [region0_array]
  exact product0_apply V c (ix2 r q) r q rfl rfl

end Cert.KernelIdeal.Matmul

end
-- ==== Proof.Region1.lean ====
import proofs.«401472_j7224134992216_1_alg».proof.Proof.Gen.KernelIdeal.Frame
import proofs.«401472_j7224134992216_1_alg».proof.Proof.LibDotSum
import Idealize.ShloMosaic.Lib.Pipeline.Value
import Idealize.ShloMosaic.Lib.ValueIdx

set_option maxRecDepth 16384

noncomputable section

namespace Cert.KernelIdeal.Matmul

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The second product's left operand as the region finds it: the hidden layer after the rectifier. -/
abbrev lhs1 (c : Dev nD) : FVec Ideal S50000x256 .f32 := V c main_v12
/-- The second product's right operand as the region finds it: the second weight matrix. -/
abbrev rhs1 (c : Dev nD) : FVec Ideal S256x40 .f32 := V c main_arg4

/-! ## One block product

At a grid point the body multiplies a block of 5000 rows of the left operand by the whole right operand. -/

/-- One block product at an index: recasting a block to its own shape changes nothing, the two casts to the narrow format
    are the identity on ideal values, and the product into the zero accumulator is the sum over the contracted coordinate. -/
private theorem blockProduct1_apply (x0 : FVec Ideal S5000x256 .f32) (x1 : FVec Ideal S256x40 .f32)
    (p : Fin 5000) (q : Fin 40) :
    k1_pay1 (F := Ideal) x0 x1 (ix2 p q) = ∑ k : Fin 256, x0 (ix2 p k) * x1 (ix2 k q) := by
  unfold k1_pay1
  rw [shapeCast_self]
  exact Cert.Lib.matmul_rc_apply dot_S5000x256_S256x40_S5000x40_1_0_0_1_n_n rfl rfl rfl rfl rfl rfl none _ _ p q

/-! ## Where the blocks sit

Point t takes row block t of the left operand and of the output; the right operand's one block never moves. -/

/-- The three index maps over the ten grid points: (t, 0) for the left operand and the output, (0, 0) for the right operand. -/
private theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 5000 t + p of the operand. -/
private theorem lhsBlock1_apply (c : Dev nD) (t : Fin cfg1.N) (p : Fin 5000) (k : Fin 256) (r : Fin 50000)
    (hr : r.val = t.val * 5000 + p.val) :
    (iblk1 V c 0 t : Vec Ideal S5000x256 .f32) (ix2 p k) = lhs1 V c (ix2 r k) := by
  obtain ⟨e0, e1, -⟩ := blockIndex1 t
  unfold iblk1
  rw [View.read_apply]
  show V c main_v12 _ = V c main_v12 _
  congr 1
  funext a
  apply Fin.ext
  match a with
  | ⟨0, _⟩ => show win1_0.index t (0 : Fin 2) * 5000 + 1 * p.val = r.val; omega
  | ⟨1, _⟩ => show win1_0.index t (1 : Fin 2) * 256 + 1 * k.val = k.val; omega

/-- The right operand's block at every point is the operand itself. -/
private theorem rhsBlock1_apply (c : Dev nD) (t : Fin cfg1.N) (k : Fin 256) (q : Fin 40) :
    (iblk1 V c 1 t : Vec Ideal S256x40 .f32) (ix2 k q) = rhs1 V c (ix2 k q) := by
  obtain ⟨-, -, e2, e3, -⟩ := blockIndex1 t
  unfold iblk1
  rw [View.read_apply]
  show V c main_arg4 _ = V c main_arg4 _
  congr 1
  funext a
  apply Fin.ext
  match a with
  | ⟨0, _⟩ => show win1_1.index t (0 : Fin 2) * 256 + 1 * k.val = k.val; omega
  | ⟨1, _⟩ => show win1_1.index t (1 : Fin 2) * 40 + 1 * q.val = q.val; omega

/-! ## The whole product, and what each point writes of it -/

private theorem zeroOffsets1 : (![0, 0] : Fin 2 → Nat) = fun _ => 0 := funext fun a => by fin_cases a <;> rfl

/-- The full product as one array: entry (r, q) is the sum over k of h (r, k) · W₂ (k, q). -/
private def product1 (c : Dev nD) : FVec Ideal S50000x40 .f32 := fun i =>
  ∑ k : Fin 256, lhs1 V c (ix2 (⟨(i 0).val, idx2_lt0 i⟩ : Fin 50000) k) * rhs1 V c (ix2 k (⟨(i 1).val, idx2_lt1 i⟩ : Fin 40))

/-- The product at an index whose coordinates are r and q. -/
private theorem product1_apply (c : Dev nD) (i : S50000x40.Idx) (r : Fin 50000) (q : Fin 40)
    (h0 : (i 0).val = r.val) (h1 : (i 1).val = q.val) :
    product1 V c i = ∑ k : Fin 256, lhs1 V c (ix2 r k) * rhs1 V c (ix2 k q) := by
  unfold product1
  have e0 : (⟨(i 0).val, idx2_lt0 i⟩ : Fin 50000) = r := Fin.ext h0
  have e1 : (⟨(i 1).val, idx2_lt1 i⟩ : Fin 40) = q := Fin.ext h1
  rw [e0, e1]

/-- What point t writes back is row block t of the full product: entry (p, q) of the block product of rows
    5000 t … 5000 t + 4999 of h with W₂ is entry (5000 t + p, q) of h · W₂. -/
private theorem writeBack1_eq (c : Dev nD) (t : Fin cfg1.N) :
    (dat1 (F := Ideal) V c).flushed 2 t = ((cfg1.win 2).blk t).view.read (Elt Ideal) (product1 V c) := by
  show (cfg1.win 2).cut (grid1.coords t) ((dat1 V c).after 2 t) = _
  rw [after1_2]
  unfold out1_2
  rw [View.canon_unit_zero zeroOffsets1]
  simp only [View.ld_unit_zero (S := S5000x256) zeroOffsets1, View.ld_unit_zero (S := S256x40) zeroOffsets1]
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (ix2 p q)
    = product1 V c (((cfg1.win 2).blk t).view.emb (ix2 p q))
  obtain ⟨-, -, -, -, e4, e5⟩ := blockIndex1 t
  have ht : t.val < 10 := Nat.lt_of_lt_of_eq t.isLt N_1
  have hr : t.val * 5000 + p.val < 50000 := by omega
  have hi0 : ((((cfg1.win 2).blk t).view.emb (ix2 p q) : S50000x40.Idx) 0).val = t.val * 5000 + p.val := by
    show win1_2.index t (0 : Fin 2) * 5000 + 1 * p.val = _
    omega
  have hi1 : ((((cfg1.win 2).blk t).view.emb (ix2 p q) : S50000x40.Idx) 1).val = q.val := by
    show win1_2.index t (1 : Fin 2) * 40 + 1 * q.val = _
    omega
  rw [blockProduct1_apply, product1_apply V c _ ⟨t.val * 5000 + p.val, hr⟩ q hi0 hi1]
  refine Finset.sum_congr rfl fun k _ => ?_
  rw [lhsBlock1_apply V c t p k ⟨t.val * 5000 + p.val, hr⟩ rfl, rhsBlock1_apply]

/-- Every index of the output lies in some point's block: row r is in row block r / 5000. -/
private theorem covered1 (i : S50000x40.Idx) :
    ∃ t : Fin cfg1.N, (cfg1.win 2).flush t = true ∧ i ∈ ((cfg1.win 2).blk t).view.set := by
  have h0 : (i 0).val < 50000 := idx2_lt0 i
  have h1 : (i 1).val < 40 := idx2_lt1 i
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e4, e5⟩ := blockIndex1 t
  refine ⟨t, flush1_2 t, ?_⟩
  show i ∈ ((View.whole main_v13).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 40 ≤ (i 1).val ∧ (i 1).val < win1_2.index t (1 : Fin 2) * 40 + 40
    omega

/-- After the ten points the output array is the full product. -/
private theorem region1_array (c : Dev nD) : (dat1 (F := Ideal) V c).arrAt 2 cfg1.N = product1 V c :=
  (dat1 V c).arrAt_eq_of_cover 2 (product1 V c) (fun t _ => writeBack1_eq V c t) covered1

theorem region1_value (c : Dev nD) (r : Fin 50000) (q : Fin 40) :
    (dat1 (F := Ideal) V c).arrAt 2 cfg1.N (ix2 r q) = ∑ k : Fin 256, lhs1 V c (ix2 r k) * rhs1 V c (ix2 k q) := by
  rw [region1_array]
  exact product1_apply V c (ix2 r q) r q rfl rfl

end Cert.KernelIdeal.Matmul

end
-- ==== Proof.TakeFill.lean ====
import proofs.«401472_j7224134992216_1_alg».proof.Proof.Stages
import Idealize.ShloMosaic.Lib.ValueIdx
import Idealize.ShloMosaic.Lib.ReduceAll
import Idealize.ShloMosaic.Lib.Pipeline.Value

noncomputable section

namespace Cert.KernelIdeal.Stages

open Idealize.ShloMosaic Idealize.ShloMosaic.ValueIdx Cert.KernelIdeal Cert.KernelIdeal.Facts₀ Cert.KernelIdeal.Facts

variable {F : FTy → Type} [FloatOps F]

/-! ### Words: a source id in [-50000, 50000), wrapped around when negative, lies in [0, 49999] -/

/-- The wrapped word: `s + 50000` where `s` is negative (no overflow: the sum lies in [0, 49999]), `s` itself otherwise. -/
private theorem wrap_word (s : BitVec 32) (h1 : -50000 ≤ s.toInt) (h2 : s.toInt < 50000) :
    0 ≤ (Scalar.select (IntOp.cmpi .slt s 0#32) (IntOp.addi s 50000#32) s).toInt ∧
      (Scalar.select (IntOp.cmpi .slt s 0#32) (IntOp.addi s 50000#32) s).toInt ≤ 49999 := by
  have z : (0#32 : BitVec 32).toInt = 0 := by decide
  have c : (50000#32 : BitVec 32).toInt = 50000 := by decide
  by_cases hneg : s.toInt < 0
  · have hc : IntOp.cmpi .slt s 0#32 = 1#1 := IntOp.cmpi_slt.2 (by rw [z]; exact hneg)
    have hs : (IntOp.addi s 50000#32).toInt = s.toInt + 50000 := by
      rw [IntOp.addi, BitVec.toInt_add, c]
      exact Int.bmod_eq_of_le (by omega) (by omega)
    rw [hc, select_one, hs]
    omega
  · have hc : ¬IntOp.cmpi .slt s 0#32 = 1#1 := fun hc => hneg (by have := IntOp.cmpi_slt.1 hc; rwa [z] at this)
    rw [eq_zero_of_ne_one hc, select_zero]
    omega

/-! ### The start index and the mask, read at an index -/

/-- The start index of edge `e` is the wrapped word of its source id. -/
private theorem wrapIdx_apply (src : IVec S800000 32) (e : Fin 800000) (k : Fin 1) :
    wrapIdx src (ix2 e k) =
      Scalar.select (IntOp.cmpi .slt (src (ix1 e)) 0#32) (IntOp.addi (src (ix1 e)) 50000#32) (src (ix1 e)) := by
  unfold wrapIdx
  refine (broadcastInDim_apply _ _ _ (ix2 e k) (ix1 e) fun a => ?_).trans rfl
  match a with
  | ⟨0, _⟩ => rfl

/-- A left fold of `and` from 1 over words that are all 1 is 1. -/
private theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf =>
    foldl_andi_one f l _ (IntOp.andi_eq_one.2 ⟨hi, hf a List.mem_cons_self⟩) fun n hn => hf n (List.mem_cons_of_mem a hn)

/-- A reduction by `and`, started at 1, of an array whose every element is 1 is 1 at every index. -/
private theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_one x _ _ hinit fun n _ => hx n

/-- Every start index is in range: the mask is all ones. -/
theorem inRange_wrapIdx (src : IVec S800000 32)
    (hsrc : ∀ e : Fin 800000, -50000 ≤ (src (ix1 e)).toInt ∧ (src (ix1 e)).toInt < 50000) :
    inRange (wrapIdx src) = fun _ => 1#1 := by
  funext j
  unfold inRange
  refine reduce_andi_of_all _ _ _ _ rfl (fun i => ?_) j
  obtain ⟨e, k, rfl⟩ : ∃ (e : Fin 800000) (k : Fin 1), i = ix2 e k := ⟨i 0, i 1, eq_ix2 i⟩
  -- at (e, 0) the mask is the `and` of the two signed comparisons of the wrapped word against 0 and 49999
  show IntOp.andi (IntOp.cmpi .sge (wrapIdx src (ix2 e k)) 0#32) (IntOp.cmpi .sle (wrapIdx src (ix2 e k)) 49999#32) = 1#1
  obtain ⟨hlo, hhi⟩ := wrap_word (src (ix1 e)) (hsrc e).1 (hsrc e).2
  rw [wrapIdx_apply]
  refine IntOp.andi_eq_one.2 ⟨IntOp.cmpi_sge.2 ?_, IntOp.cmpi_sle.2 ?_⟩
  · rw [show (0#32 : BitVec 32).toInt = 0 by decide]; exact hlo
  · rw [show (49999#32 : BitVec 32).toInt = 49999 by decide]; exact hhi

theorem take256_eq_gather (h : FVec F S50000x256 .f32) (src : IVec S800000 32)
    (hsrc : ∀ e : Fin 800000, -50000 ≤ (src (ix1 e)).toInt ∧ (src (ix1 e)).toInt < 50000) :
    take256 h src = Host.gather gather_S50000x256_S800000x1_S800000x256_1_0_n_n_0_1_1256 h (wrapIdx src) := by
  funext j
  unfold take256
  rw [inRange_wrapIdx src hsrc]
  -- the condition, a broadcast of the all-ones vector, is 1 at `j`: the select is its first branch
  exact select_one _ _

theorem take40_eq_gather (h : FVec F S50000x40 .f32) (src : IVec S800000 32)
    (hsrc : ∀ e : Fin 800000, -50000 ≤ (src (ix1 e)).toInt ∧ (src (ix1 e)).toInt < 50000) :
    take40 h src = Host.gather gather_S50000x40_S800000x1_S800000x40_1_0_n_n_0_1_140 h (wrapIdx src) := by
  funext j
  unfold take40
  rw [inRange_wrapIdx src hsrc]
  exact select_one _ _

end Cert.KernelIdeal.Stages

end
-- ==== Proof.Spec.lean ====
/-
  The function both programs compute, over the extended reals: two graph-convolution layers.

  A layer multiplies the node features by a weight matrix (entry (r, q) of the product is the sum over k of
  x(r, k) · w(k, q)), gathers for every edge the product's row at the edge's source node, sums the gathered rows per
  destination node and adds the bias; the first layer is followed by the rectifier. Here the gather is the plain one:
  where every source id is a legal index it is what the take with fill computes.
-/
import proofs.«401472_j7224134992216_1_alg».proof.Proof.Stages
import Idealize.ShloMosaic.Lib.ValueIdx
import Idealize.ShloMosaic.Lib.Pipeline.Value

noncomputable section

namespace Cert.KernelIdeal.Stages

open Idealize.ShloMosaic Idealize.ShloMosaic.ValueIdx Cert.KernelIdeal Cert.KernelIdeal.Facts₀ Cert.KernelIdeal.Facts

/-- The rows × columns product of two arrays of extended reals. -/
def mm {M K N : Nat} (A : FVec Ideal ⟨2, ![M, K]⟩ .f32) (B : FVec Ideal ⟨2, ![K, N]⟩ .f32) : FVec Ideal ⟨2, ![M, N]⟩ .f32 :=
  fun i => ∑ k : Fin K, A (ix2 (⟨(i 0).val, idx2_lt0 i⟩ : Fin M) k) * B (ix2 k (⟨(i 1).val, idx2_lt1 i⟩ : Fin N))

/-- Its entry (r, q) is the sum over k of A (r, k) · B (k, q). -/
theorem mm_apply {M K N : Nat} (A : FVec Ideal ⟨2, ![M, K]⟩ .f32) (B : FVec Ideal ⟨2, ![K, N]⟩ .f32) (r : Fin M) (q : Fin N) :
    mm A B (ix2 r q) = ∑ k : Fin K, A (ix2 r k) * B (ix2 k q) := rfl

/-- An array whose every entry (r, q) is that sum is the product. -/
theorem eq_mm {M K N : Nat} (A : FVec Ideal ⟨2, ![M, K]⟩ .f32) (B : FVec Ideal ⟨2, ![K, N]⟩ .f32)
    (C : FVec Ideal ⟨2, ![M, N]⟩ .f32) (h : ∀ (r : Fin M) (q : Fin N), C (ix2 r q) = ∑ k : Fin K, A (ix2 r k) * B (ix2 k q)) :
    C = mm A B := by
  funext i
  rw [eq_ix2 i]
  exact h _ _

/-- Two graph-convolution layers with the plain gather: project, gather at the source, sum per destination, add the
    bias, rectify; project, gather, sum, add the bias. -/
def gcn (x : FVec Ideal S50000x128 .f32) (e : IVec S2x800000 32) (w1 : FVec Ideal S128x256 .f32) (b1 : FVec Ideal S256 .f32)
    (w2 : FVec Ideal S256x40 .f32) (b2 : FVec Ideal S40 .f32) : FVec Ideal S50000x40 .f32 :=
  aggregate40
    (Host.gather gather_S50000x40_S800000x1_S800000x40_1_0_n_n_0_1_140
      (mm (rectify (aggregate256
          (Host.gather gather_S50000x256_S800000x1_S800000x256_1_0_n_n_0_1_1256 (mm x w1) (wrapIdx (srcOf e)))
          (dstOf e) b1)) w2)
      (wrapIdx (srcOf e)))
    (dstOf e) b2

/-- Row 0 of the edge list, flattened: its element e is the word at position (0, e). -/
theorem srcOf_apply (a : IVec S2x800000 32) (e : Fin 800000) : srcOf a (ix1 e) = a (ix2 (0 : Fin 2) e) := by
  unfold srcOf
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ _ _ (ix2 (0 : Fin 1) e) (ix2 (0 : Fin 2) e) fun a => ?_
    match a with
    | ⟨0, _⟩ => rfl
    | ⟨1, _⟩ => show e.val = 0 + e.val; omega

end Cert.KernelIdeal.Stages

end
-- ==== Proof.KernelValue.lean ====
/-
  The kernel's result buffer holds the two-layer function of the launched arguments, wherever every source node id is
  a legal index (in [-50000, 50000)): each tiled product leaves the rows × columns sum in its output array, and with
  every start index in range the take with fill is the plain gather.
-/
import proofs.«401472_j7224134992216_1_alg».proof.Proof.Readback
import proofs.«401472_j7224134992216_1_alg».proof.Proof.ReadbackL1
import proofs.«401472_j7224134992216_1_alg».proof.Proof.ReadbackL2
import proofs.«401472_j7224134992216_1_alg».proof.Proof.Region0
import proofs.«401472_j7224134992216_1_alg».proof.Proof.Region1
import proofs.«401472_j7224134992216_1_alg».proof.Proof.TakeFill
import proofs.«401472_j7224134992216_1_alg».proof.Proof.Spec

set_option maxRecDepth 200000

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Stages Cert.KernelIdeal.Readback Cert.KernelIdeal.Matmul

variable (m : (ℓ : Loc nD τ sig) → Buf (Elt Ideal) ℓ) (ρ : Dev nD → PrngReg)

/-! ## At the second product's exit: its output holds the write-backs, every other buffer is as entered -/

theorem W6_proj (c : Dev nD) : W6 m ρ c (Proc.devRef .tc main_v13) = (dat1 (V5 m ρ) c).arrAt 2 cfg1.N := W6_arr m ρ c 2
theorem W6_src (c : Dev nD) : W6 m ρ c (Proc.devRef .tc main_v1) = srcOf (m ((c : Thread nD τ).loc main_arg1)) :=
  ((W6_of_ne m ρ c main_v1 (by decide)).trans (W5_src m ρ c)).trans (W2_src m ρ c)
theorem W6_dst (c : Dev nD) : W6 m ρ c (Proc.devRef .tc main_v3) = dstOf (m ((c : Thread nD τ).loc main_arg1)) :=
  ((W6_of_ne m ρ c main_v3 (by decide)).trans (W5_dst m ρ c)).trans (W2_dst m ρ c)
theorem W6_arg5 (c : Dev nD) : W6 m ρ c (Proc.devRef .tc main_arg5) = m ((c : Thread nD τ).loc main_arg5) :=
  ((W6_of_ne m ρ c main_arg5 (by decide)).trans (W5_arg5 m ρ c)).trans (W2_arg5 m ρ c)

/-! ## The two products and the result -/

/-- The first tiled product leaves x · W1 in its output array. -/
theorem proj1 (c : Dev nD) : W2 m ρ c (Proc.devRef .tc main_v4)
    = mm (m ((c : Thread nD τ).loc main_arg0) : FVec Ideal S50000x128 .f32) (m ((c : Thread nD τ).loc main_arg2) : FVec Ideal S128x256 .f32) := by
  rw [W2_proj]
  refine eq_mm _ _ _ fun r q => ?_
  rw [region0_value (V1 m ρ) c r q]
  -- the region finds both operands as launched: the two slices before it write neither
  have e0 : lhs0 (V1 m ρ) c = (m ((c : Thread nD τ).loc main_arg0) : FVec Ideal S50000x128 .f32) := W1_arg0 m ρ c
  have e2 : rhs0 (V1 m ρ) c = (m ((c : Thread nD τ).loc main_arg2) : FVec Ideal S128x256 .f32) := W1_arg2 m ρ c
  rw [e0, e2]

/-- The second tiled product leaves h · W2 in its output array, h the hidden layer as the region finds it. -/
theorem proj2 (c : Dev nD) : W6 m ρ c (Proc.devRef .tc main_v13)
    = mm (W5 m ρ c (Proc.devRef .tc main_v12) : FVec Ideal S50000x256 .f32) (m ((c : Thread nD τ).loc main_arg4) : FVec Ideal S256x40 .f32) := by
  rw [W6_proj]
  refine eq_mm _ _ _ fun r q => ?_
  rw [region1_value (V5 m ρ) c r q]
  -- the region finds the second weight matrix as launched: nothing before it writes it
  have e4 : rhs1 (V5 m ρ) c = (m ((c : Thread nD τ).loc main_arg4) : FVec Ideal S256x40 .f32) :=
    (W5_arg4 m ρ c).trans (W2_arg4 m ρ c)
  rw [e4]

/-- The result buffer after the run. -/
theorem result_eq (c : Dev nD)
    (hsrc : ∀ e : Fin 800000, -50000 ≤ (srcOf (m ((c : Thread nD τ).loc main_arg1)) (ix1 e)).toInt
      ∧ (srcOf (m ((c : Thread nD τ).loc main_arg1)) (ix1 e)).toInt < 50000) :
    W8 m ρ c (Proc.devRef .tc main_v20)
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W8_out, W6_src, W6_dst, W6_arg5, proj2, W5_hidden, W2_src, W2_dst, W2_arg3, proj1]
  rw [take40_eq_gather _ _ hsrc, take256_eq_gather _ _ hsrc]
  rfl

end Cert.KernelIdeal.KernelValue

end
-- ==== Proof.RefValue.lean ====
/-
  The reference computes the two-layer function: its two products are the plain rows × columns sums, its gather is
  the plain one at the wrapped source ids, and the rest of its operations are the stage functions themselves.
-/
import proofs.«401472_j7224134992216_1_alg».proof.Proof.Gen.ReferenceIdeal.Read
import proofs.«401472_j7224134992216_1_alg».proof.Proof.Spec
import proofs.«401472_j7224134992216_1_alg».proof.Proof.LibDotSum

set_option maxRecDepth 200000

noncomputable section

namespace Cert.ReferenceIdeal.RefValue

open Idealize.ShloMosaic Idealize.ShloMosaic.ValueIdx
open Cert.KernelIdeal.Stages

/-- The reference's first product is the rows × columns sum. -/
theorem dot1_eq (A : FVec Ideal Cert.ReferenceIdeal.S50000x128 .f32) (B : FVec Ideal Cert.ReferenceIdeal.S128x256 .f32) :
    Host.dotGeneral Cert.ReferenceIdeal.dot_S50000x128_S128x256_S50000x256_1_0_0_1_n_n none A B = mm A B :=
  eq_mm A B _ fun r q => Cert.Lib.dotGeneral_rc_apply _ rfl rfl rfl rfl rfl rfl none A B r q

/-- The reference's second product is the rows × columns sum. -/
theorem dot2_eq (A : FVec Ideal Cert.ReferenceIdeal.S50000x256 .f32) (B : FVec Ideal Cert.ReferenceIdeal.S256x40 .f32) :
    Host.dotGeneral Cert.ReferenceIdeal.dot_S50000x256_S256x40_S50000x40_1_0_0_1_n_n none A B = mm A B :=
  eq_mm A B _ fun r q => Cert.Lib.dotGeneral_rc_apply _ rfl rfl rfl rfl rfl rfl none A B r q

open Cert.ReferenceIdeal.Read in
/-- The reference's result stage is the two-layer function of its arguments. -/
theorem result_eq (x0 : FVec Ideal Cert.ReferenceIdeal.S50000x128 .f32) (x1 : IVec Cert.ReferenceIdeal.S2x800000 32)
    (x2 : FVec Ideal Cert.ReferenceIdeal.S128x256 .f32) (x3 : FVec Ideal Cert.ReferenceIdeal.S256 .f32)
    (x4 : FVec Ideal Cert.ReferenceIdeal.S256x40 .f32) (x5 : FVec Ideal Cert.ReferenceIdeal.S40 .f32) :
    val_main_v32 (F := Ideal) x0 x1 x2 x3 x4 x5 = gcn x0 x1 x2 x3 x4 x5 := by
  unfold val_main_v32 val_main_v29 val_main_v26 val_main_v19 val_main_v18 val_main_v17 val_main_v14 val_main_v11 val_main_v4
  rw [dot1_eq, dot2_eq]
  rfl

end Cert.ReferenceIdeal.RefValue

end
-- ==== Proof.PreDecode.lean ====
import proofs.«401472_j7224134992216_1_alg».proof.Pre_finite_inputs
import Idealize.ShloMosaic.Lib.ReduceAll
import Idealize.ShloMosaic.Lib.ValueIdx
import Idealize.ShloMosaic.Lib.Pipeline.Value

noncomputable section

namespace Cert.Pre_finite_inputs.Decode

open Idealize.ShloMosaic Idealize.ShloMosaic.ValueIdx Cert.Pre_finite_inputs

variable [Facts] {F : FTy → Type} [FloatOps F]

/-- The scalar shape has exactly one index. -/
private instance : Subsingleton S_.Idx := ⟨fun a b => funext fun d => d.elim0⟩

/-- Row 0 of the edge list, flattened to one axis: its element `e` is the word at position (0, e). -/
private theorem row0_apply (a1 : IVec S2x800000 32) (e : Fin 800000) :
    shapeCast S800000 (extractStridedSlice S1x800000 ![0, 0] a1 Facts.slices_S2x800000_S1x800000_0_0)
      Facts.shapeCasts_S1x800000_S800000 (ix1 e) = a1 (ix2 (0 : Fin 2) e) := by
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ _ _ (ix2 (0 : Fin 1) e) (ix2 (0 : Fin 2) e) fun a => ?_
    match a with
    | ⟨0, _⟩ => rfl
    | ⟨1, _⟩ => show e.val = 0 + e.val; omega

/-- Where the stated precondition holds, every source node id (row 0 of the edge list) is a legal index of an
    axis of extent 50000 under wrap-around of negatives: it lies in [-50000, 50000). -/
theorem src_range (a0 : FVec F S50000x128 .f32) (a1 : IVec S2x800000 32) (a2 : FVec F S128x256 .f32)
    (a3 : FVec F S256 .f32) (a4 : FVec F S256x40 .f32) (a5 : FVec F S40 .f32)
    (h : fn (F := F) a0 a1 a2 a3 a4 a5 = fun _ => 1#1) (e : Fin 800000) :
    -50000 ≤ (a1 (ix2 (0 : Fin 2) e)).toInt ∧ (a1 (ix2 (0 : Fin 2) e)).toInt < 50000 := by
  -- the whole predicate at the one scalar index; its outermost `and` has the range test as its second operand
  have h0 := congrFun h ValueIdx.ix0
  dsimp only [fn, fn_part1] at h0
  obtain ⟨-, hall⟩ := IntOp.andi_eq_one.1 h0
  -- `all` over the 800000 edges: the test holds at edge `e`, and it is the `and` of the two comparisons there
  have he := Host.reduce_andi_all _ _ _ _ _ hall (ix1 e)
  obtain ⟨hge, hlt⟩ := IntOp.andi_eq_one.1 he
  -- each comparison is signed, on the word at (0, e) against a constant broadcast to every edge
  have hge' : (4294917296#32 : BitVec 32).toInt ≤ _ := IntOp.cmpi_sge.1 hge
  have hlt' : _ < (50000#32 : BitVec 32).toInt := IntOp.cmpi_slt.1 hlt
  rw [row0_apply] at hge' hlt'
  -- the lower constant is the two's-complement word of -50000
  rw [show (4294917296#32 : BitVec 32).toInt = -50000 by decide] at hge'
  rw [show (50000#32 : BitVec 32).toInt = 50000 by decide] at hlt'
  exact ⟨hge', hlt'⟩

end Cert.Pre_finite_inputs.Decode

end
-- ==== Proof.lean ====
/-
  A two-layer graph convolution, as a tiled kernel program and as its plain reference, compute the same array over the
  extended reals wherever every source node id is a legal index.

  Both programs project the node features (x · W1), gather one projected row per edge at the edge's source node, sum
  the gathered rows per destination node, add the bias and rectify; then do the same with the second weight matrix and
  bias, without the rectifier. The kernel program computes each projection in ten row tiles, casting the operands to a
  narrower float format (the identity over the reals) and multiplying into a zero accumulator: its output array is the
  rows × columns sum, which is what the reference's product is. It gathers by a take with fill: a source id that, after
  negative ids are wrapped around, still lies outside [0, 49999] yields a fixed fill value, where the reference's plain
  gather clamps the id into the array. The two differ exactly there. The stated domain keeps every source id in
  [-50000, 50000), where the reference's own indexing is in range; on it every wrapped id lies in [0, 49999], the take
  is the plain gather, and the two programs' remaining operations are the same functions of equal arguments.
  No law of the extended reals beyond rewriting equal terms is needed, so finiteness of the float inputs is never used.
-/
import proofs.«401472_j7224134992216_1_alg».proof.Defs
import proofs.«401472_j7224134992216_1_alg».proof.Proof.Gen.Kernel
import proofs.«401472_j7224134992216_1_alg».proof.Proof.Gen.Kernel.Skeleton
import proofs.«401472_j7224134992216_1_alg».proof.Proof.Gen.Kernel.Launch
import proofs.«401472_j7224134992216_1_alg».proof.Proof.Gen.Kernel.Points
import proofs.«401472_j7224134992216_1_alg».proof.Proof.Gen.Kernel.Frame
import proofs.«401472_j7224134992216_1_alg».proof.Proof.Gen.KernelIdeal
import proofs.«401472_j7224134992216_1_alg».proof.Proof.Gen.KernelIdeal.Skeleton
import proofs.«401472_j7224134992216_1_alg».proof.Proof.Gen.KernelIdeal.Launch
import proofs.«401472_j7224134992216_1_alg».proof.Proof.Gen.KernelIdeal.Points
import proofs.«401472_j7224134992216_1_alg».proof.Proof.Gen.KernelIdeal.Frame
import proofs.«401472_j7224134992216_1_alg».proof.Proof.Gen.ReferenceIdeal
import proofs.«401472_j7224134992216_1_alg».proof.Proof.Gen.Pre_finite_inputs
import proofs.«401472_j7224134992216_1_alg».proof.Proof.Gen.ReferenceIdeal.Run
import proofs.«401472_j7224134992216_1_alg».proof.Proof.Gen.ReferenceIdeal.Read
import proofs.«401472_j7224134992216_1_alg».proof.Proof.KernelRun
import proofs.«401472_j7224134992216_1_alg».proof.Proof.KernelValue
import proofs.«401472_j7224134992216_1_alg».proof.Proof.RefValue
import proofs.«401472_j7224134992216_1_alg».proof.Proof.PreDecode
import Idealize.ShloMosaic.Adequacy
import Idealize.ShloMosaic.Init

set_option maxRecDepth 200000

noncomputable section

namespace Cert.Proof

open Idealize.ShloMosaic Idealize.ShloMosaic.TcCoe Idealize.ShloMosaic.ValueIdx Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with every source id a legal index, both programs end with the
    two-layer function of the arguments in their result. -/
theorem algebraic : Cert.algebraic_KernelIdeal_ReferenceIdeal := by
  intro m ρ m' ρ' hpre hagree
  refine ⟨fun c => Cert.KernelIdeal.Stages.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · -- the kernel program: its result buffer is the fold's last contents, which are the function where the ids are legal
    refine (θ_run Cert.KernelIdeal.defs _ _).mono (fun r h c => ⟨(h c).1.trans ?_, (h c).2⟩)
      (Cert.KernelIdeal.ResultRun.run_result (F := Ideal) m ρ)
    refine Cert.KernelIdeal.KernelValue.result_eq m ρ c fun e => ?_
    rw [Cert.KernelIdeal.Stages.srcOf_apply]
    exact Cert.Pre_finite_inputs.Decode.src_range _ _ _ _ _ _ (hpre c) e
  · -- the reference: its run's term is its last stage, which is the function; its arguments are the kernel's
    refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v32_eq _ _ _ _ _ _).trans (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
